-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x19 : Shape := ⟨2, ![4000000, 19]⟩
abbrev S4000000x1 : Shape := ⟨2, ![4000000, 1]⟩
abbrev S4000000x18 : Shape := ⟨2, ![4000000, 18]⟩
abbrev S18 : Shape := ⟨1, ![18]⟩
abbrev S_ : Shape := ⟨0, ![]⟩

class Facts : Prop where
  bcast_S_S4000000x19 : S_.BroadcastsInDim S4000000x19 (![] : Fin 0 → Fin S4000000x19.rank)
  reducesTo_S4000000x19_S_d0_1 : S4000000x19.ReducesTo [0, 1] S_
  h_S_ : 0 < S_.numel
  bcast_S_S4000000x1 : S_.BroadcastsInDim S4000000x1 (![] : Fin 0 → Fin S4000000x1.rank)
  reducesTo_S4000000x1_S_d0_1 : S4000000x1.ReducesTo [0, 1] S_
  bcast_S_S4000000x18 : S_.BroadcastsInDim S4000000x18 (![] : Fin 0 → Fin S4000000x18.rank)
  reducesTo_S4000000x18_S_d0_1 : S4000000x18.ReducesTo [0, 1] S_
  bcast_S_S18 : S_.BroadcastsInDim S18 (![] : Fin 0 → Fin S18.rank)
  reducesTo_S18_S_d0 : S18.ReducesTo [0] S_

variable [Facts]

def fn_part1 {F : FTy → Type} [FloatOps F] (main_arg4 : FVec F S18 .f32) (main_v13 : IVec S_ 1) (main_v16 : IVec S4000000x1 1) : IVec S_ 1 :=
  let main_c_5 : IVec S_ 1 := constantI S_ 1 1#1
  let main_v17 : IVec S_ 1 := (fun x v => Host.reduce IntOp.andi x v reducesTo_S4000000x1_S_d0_1 h_S_) main_v16 main_c_5
  let main_v18 : IVec S_ 1 := andi main_v13 main_v17
  let main_v19 : FVec F S18 .f32 := Host.absf main_arg4
  let main_cst_6 : FVec F S_ .f32 := constant S_ .f32 0x7F800000#32
  let main_v20 : FVec F S18 .f32 := broadcastInDim S18 ![] bcast_S_S18 main_cst_6
  let main_v21 : IVec S18 1 := cmpf .olt main_v19 main_v20
  let main_c_7 : IVec S_ 1 := constantI S_ 1 1#1
  let main_v22 : IVec S_ 1 := (fun x v => Host.reduce IntOp.andi x v reducesTo_S18_S_d0 h_S_) main_v21 main_c_7
  let main_v23 : IVec S_ 1 := andi main_v18 main_v22
  main_v23

def fn {F : FTy → Type} [FloatOps F] (main_arg0 : FVec F S4000000x19 .f32) (main_arg1 : FVec F S4000000x1 .f32) (main_arg2 : FVec F S4000000x18 .f32) (main_arg3 : FVec F S4000000x1 .f32) (main_arg4 : FVec F S18 .f32) : IVec S_ 1 :=
  let main_v0 : FVec F S4000000x19 .f32 := Host.absf main_arg0
  let main_cst : FVec F S_ .f32 := constant S_ .f32 0x7F800000#32
  let main_v1 : FVec F S4000000x19 .f32 := broadcastInDim S4000000x19 ![] bcast_S_S4000000x19 main_cst
  let main_v2 : IVec S4000000x19 1 := cmpf .olt main_v0 main_v1
  let main_c : IVec S_ 1 := constantI S_ 1 1#1
  let main_v3 : IVec S_ 1 := (fun x v => Host.reduce IntOp.andi x v reducesTo_S4000000x19_S_d0_1 h_S_) main_v2 main_c
  let main_v4 : FVec F S4000000x1 .f32 := Host.absf main_arg1
  let main_cst_0 : FVec F S_ .f32 := constant S_ .f32 0x7F800000#32
  let main_v5 : FVec F S4000000x1 .f32 := broadcastInDim S4000000x1 ![] bcast_S_S4000000x1 main_cst_0
  let main_v6 : IVec S4000000x1 1 := cmpf .olt main_v4 main_v5
  let main_c_1 : IVec S_ 1 := constantI S_ 1 1#1
  let main_v7 : IVec S_ 1 := (fun x v => Host.reduce IntOp.andi x v reducesTo_S4000000x1_S_d0_1 h_S_) main_v6 main_c_1
  let main_v8 : IVec S_ 1 := andi main_v3 main_v7
  let main_v9 : FVec F S4000000x18 .f32 := Host.absf main_arg2
  let main_cst_2 : FVec F S_ .f32 := constant S_ .f32 0x7F800000#32
  let main_v10 : FVec F S4000000x18 .f32 := broadcastInDim S4000000x18 ![] bcast_S_S4000000x18 main_cst_2
  let main_v11 : IVec S4000000x18 1 := cmpf .olt main_v9 main_v10
  let main_c_3 : IVec S_ 1 := constantI S_ 1 1#1
  let main_v12 : IVec S_ 1 := (fun x v => Host.reduce IntOp.andi x v reducesTo_S4000000x18_S_d0_1 h_S_) main_v11 main_c_3
  let main_v13 : IVec S_ 1 := andi main_v8 main_v12
  let main_v14 : FVec F S4000000x1 .f32 := Host.absf main_arg3
  let main_cst_4 : FVec F S_ .f32 := constant S_ .f32 0x7F800000#32
  let main_v15 : FVec F S4000000x1 .f32 := broadcastInDim S4000000x1 ![] bcast_S_S4000000x1 main_cst_4
  let main_v16 : IVec S4000000x1 1 := cmpf .olt main_v14 main_v15
  fn_part1 (F := F) main_arg4 main_v13 main_v16
-- ==== Kernel.lean ====
abbrev S4000000x19 : Shape := ⟨2, ![4000000, 19]⟩
abbrev S4000000x1 : Shape := ⟨2, ![4000000, 1]⟩
abbrev S4000000x18 : Shape := ⟨2, ![4000000, 18]⟩
abbrev S18 : Shape := ⟨1, ![18]⟩
abbrev S1x18 : Shape := ⟨2, ![1, 18]⟩
abbrev S1x1 : Shape := ⟨2, ![1, 1]⟩
abbrev S5000x19 : Shape := ⟨2, ![5000, 19]⟩
abbrev S5000x18 : Shape := ⟨2, ![5000, 18]⟩
abbrev S5000x1 : Shape := ⟨2, ![5000, 1]⟩
abbrev S5000 : Shape := ⟨1, ![5000]⟩
abbrev S1 : Shape := ⟨1, ![1]⟩
abbrev S_ : Shape := ⟨0, ![]⟩

abbrev nBuf : Space → Nat
  | .hbm => 17
  | .vmem => 11
  | .smem => 0
  | _ => 0

abbrev bufTy : (tb : Table) → Fin (tcTables nBuf tb) → BufTy
  | .hbm, ⟨0, _⟩ => ⟨S4000000x19, .f32⟩
  | .hbm, ⟨1, _⟩ => ⟨S4000000x1, .f32⟩
  | .hbm, ⟨2, _⟩ => ⟨S4000000x18, .f32⟩
  | .hbm, ⟨3, _⟩ => ⟨S4000000x1, .f32⟩
  | .hbm, ⟨4, _⟩ => ⟨S18, .f32⟩
  | .hbm, ⟨5, _⟩ => ⟨S1x18, .f32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S5000x19, .f32⟩
  | .local _ .vmem, ⟨1, _⟩ => ⟨S5000x19, .f32⟩
  | .local _ .vmem, ⟨2, _⟩ => ⟨S5000x18, .f32⟩
  | .local _ .vmem, ⟨3, _⟩ => ⟨S5000x18, .f32⟩
  | .local _ .vmem, ⟨4, _⟩ => ⟨S5000x1, .f32⟩
  | .local _ .vmem, ⟨5, _⟩ => ⟨S5000x1, .f32⟩
  | .local _ .vmem, ⟨6, _⟩ => ⟨S5000x1, .f32⟩
  | .local _ .vmem, ⟨7, _⟩ => ⟨S5000x1, .f32⟩
  | .local _ .vmem, ⟨8, _⟩ => ⟨S1x18, .f32⟩
  | .local _ .vmem, ⟨9, _⟩ => ⟨S1x1, .f32⟩
  | .local _ .vmem, ⟨10, _⟩ => ⟨S1x1, .f32⟩
  | _, _ => ⟨S4000000x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x19 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x18 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S18_S1x18 : S18.ShapeCasts S1x18
  inb_S1x1_S1x1_0_0 : ∀ a, (![0, 0] : Fin 2 → Nat) a + S1x1.size a ≤ S1x1.size a
  h_S1x1 : 0 < S1x1.numel
  inb_S5000x19_S5000x18_0_0 : ∀ a, (![0, 0] : Fin 2 → Nat) a + S5000x18.size a ≤ S5000x19.size a
  h_S5000x18 : 0 < S5000x18.numel
  inb_S5000x19_S5000x1_0_18 : ∀ a, (![0, 18] : Fin 2 → Nat) a + S5000x1.size a ≤ S5000x19.size a
  h_S5000x1 : 0 < S5000x1.numel
  inb_S1x18_S1x18_0_0 : ∀ a, (![0, 0] : Fin 2 → Nat) a + S1x18.size a ≤ S1x18.size a
  h_S1x18 : 0 < S1x18.numel
  shapeCasts_S1x18_S1x18 : S1x18.ShapeCasts S1x18
  inb_S5000x18_S5000x18_0_0 : ∀ a, (![0, 0] : Fin 2 → Nat) a + S5000x18.size a ≤ S5000x18.size a
  broadcasts_S1x18_S5000x18 : S1x18.Broadcasts S5000x18
  reduces_S5000x18_S5000 : S5000x18.Reduces [1] S5000
  shapeCasts_S5000_S5000x1 : S5000.ShapeCasts S5000x1
  inb_S5000x1_S5000x1_0_0 : ∀ a, (![0, 0] : Fin 2 → Nat) a + S5000x1.size a ≤ S5000x1.size a
  shapeCasts_S1x1_S1x1 : S1x1.ShapeCasts S1x1
  reduces_S5000x1_S1 : S5000x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x19.size a ≤ S4000000x19.size a
  hwx0_0 : ∀ i : grid0.Coords, EltTy.bits .f32 = 32 ∨ (Rect.block (s := S4000000x19) S5000x19.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x18.size a ≤ S4000000x18.size a
  hwx0_1 : ∀ i : grid0.Coords, EltTy.bits .f32 = 32 ∨ (Rect.block (s := S4000000x18) S5000x18.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S4000000x1.size a
  hwx0_2 : ∀ i : grid0.Coords, EltTy.bits .f32 = 32 ∨ (Rect.block (s := S4000000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S4000000x1.size a
  hwx0_3 : ∀ i : grid0.Coords, EltTy.bits .f32 = 32 ∨ (Rect.block (s := S4000000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x18.size a ≤ S1x18.size a
  hwx0_4 : ∀ i : grid0.Coords, EltTy.bits .f32 = 32 ∨ (Rect.block (s := S1x18) S1x18.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

abbrev win0_0 : Pipeline.Window sig grid0 :=
  Pipeline.Window.ofSpec (Memref.whole main_arg0) S5000x19.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x18.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x18.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4000000x19 : Shape := ⟨2, ![4000000, 19]⟩
abbrev S4000000x1 : Shape := ⟨2, ![4000000, 1]⟩
abbrev S4000000x18 : Shape := ⟨2, ![4000000, 18]⟩
abbrev S18 : Shape := ⟨1, ![18]⟩
abbrev S1x18 : Shape := ⟨2, ![1, 18]⟩
abbrev S_ : Shape := ⟨0, ![]⟩
abbrev S4000000 : Shape := ⟨1, ![4000000]⟩

abbrev nBuf : Space → Nat
  | .hbm => 30
  | .vmem => 0
  | .smem => 0
  | _ => 0

abbrev bufTy : (tb : Table) → Fin (tcTables nBuf tb) → BufTy
  | .hbm, ⟨0, _⟩ => ⟨S4000000x19, .f32⟩
  | .hbm, ⟨1, _⟩ => ⟨S4000000x1, .f32⟩
  | .hbm, ⟨2, _⟩ => ⟨S4000000x18, .f32⟩
  | .hbm, ⟨3, _⟩ => ⟨S4000000x1, .f32⟩
  | .hbm, ⟨4, _⟩ => ⟨S18, .f32⟩
  | .hbm, ⟨5, _⟩ => ⟨S4000000x18, .f32⟩
  | .hbm, ⟨6, _⟩ => ⟨S4000000x1, .f32⟩
  | .hbm, ⟨7, _⟩ => ⟨S1x18, .f32⟩
  | .hbm, ⟨8, _⟩ => ⟨S4000000x18, .f32⟩
  | .hbm, ⟨9, _⟩ => ⟨S4000000x18, .f32⟩
  | .hbm, ⟨10, _⟩ => ⟨S4000000x18, .f32⟩
  | .hbm, ⟨11, _⟩ => ⟨S_, .f32⟩
  | .hbm, ⟨12, _⟩ => ⟨S4000000, .f32⟩
  | .hbm, ⟨13, _⟩ => ⟨S4000000x1, .f32⟩
  | .hbm, ⟨14, _⟩ => ⟨S4000000x1, .f32⟩
  | .hbm, ⟨15, _⟩ => ⟨S4000000x1, .f32⟩
  | .hbm, ⟨16, _⟩ => ⟨S4000000x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4000000x1, .f32⟩
  | .hbm, ⟨22, _⟩ => ⟨S4000000x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S4000000x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  slices_S4000000x19_S4000000x18_0_0 : S4000000x19.Slices ![0, 0] S4000000x18
  slices_S4000000x19_S4000000x1_0_18 : S4000000x19.Slices ![0, 18] S4000000x1
  bcast_S18_S1x18_1 : S18.BroadcastsInDim S1x18 (![1] : Fin 1 → Fin S1x18.rank)
  bcast_S1x18_S4000000x18_0_1 : S1x18.BroadcastsInDim S4000000x18 (![0, 1] : Fin 2 → Fin S4000000x18.rank)
  reducesTo_S4000000x18_S4000000_d1 : S4000000x18.ReducesTo [1] S4000000
  h_S_ : 0 < S_.numel
  bcast_S4000000_S4000000x1_0 : S4000000.BroadcastsInDim S4000000x1 (![0] : Fin 1 → Fin S4000000x1.rank)
  reducesTo_S4000000x1_S_d0_1 : S4000000x1.ReducesTo [0, 1] S_

variable [Facts₀]

class Facts : Prop extends Facts₀ where

variable [Facts]
-- ==== Proof.PointTotals.lean ====
/-
  What one grid point leaves in the two running totals.

  The kernel keeps two 1 × 1 accumulators in place across its 800 grid points. At a point it reads the point's block of
  `model_output` (as its first 18 columns `c` and its last column `d`), of `A`, of `y`, of `B_tl` and the row `beta`, and
  adds to each accumulator the block's sum of squared residuals. At the first point the accumulators are first set to
  zero, so that point leaves `0 + (its block's sum)`; every later point leaves `(what the point before left) + (its
  block's sum)`. Here each of the four cases (two accumulators, first point or not) is read off the stores the body's
  run found: the last store through the whole 1 × 1 buffer is what the buffer ends holding, and a load through a whole
  buffer reads its contents.
-/
import proofs.«132398_j48430051230317_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Totals

open Cert.KernelIdeal Cert.KernelIdeal.Gen

variable {F : FTy → Type} [FloatOps F]

theorem hz2 : (![0, 0] : Fin 2 → Nat) = fun _ => 0 := funext fun a => by fin_cases a <;> rfl

/-- The first 18 columns of a block of `model_output`: the correction `c`. -/
abbrev corr (x0 : Vec F S5000x19 .f32) : Vec F S5000x18 .f32 :=
  View.ld x0 (Rect.unit (s := S5000x19) ![0, 0] S5000x18.size Facts₀.inb_S5000x19_S5000x18_0_0)

/-- Its last column: the offset `d`. -/
abbrev offs (x0 : Vec F S5000x19 .f32) : Vec F S5000x1 .f32 :=
  View.ld x0 (Rect.unit (s := S5000x19) ![0, 18] S5000x1.size Facts₀.inb_S5000x19_S5000x1_0_18)

/-- A later point leaves in the first accumulator its previous contents plus the block's sum against `y`. -/
theorem later_fst (c : Dev nD) (i : grid0.Coords) (a1 : Memref sig .tc .vmem S5000x19 .f32) (h1 : a1.IsWhole) (a2 : Memref sig .tc .vmem S5000x18 .f32) (h2 : a2.IsWhole)
    (a3 : Memref sig .tc .vmem S5000x1 .f32) (h3 : a3.IsWhole) (a4 : Memref sig .tc .vmem S5000x1 .f32) (h4 : a4.IsWhole)
    (a5 : Memref sig .tc .vmem S1x18 .f32) (h5 : a5.IsWhole) (a6 : Memref sig .tc .vmem S1x1 .f32) (h6 : a6.IsWhole)
    (a7 : Memref sig .tc .vmem S1x1 .f32) (h7 : a7.IsWhole) (hc : ¬cond0_0 i)
    (x0 : Vec F S5000x19 .f32) (x1 : Vec F S5000x18 .f32) (x2 : Vec F S5000x1 .f32) (x3 : Vec F S5000x1 .f32) (x4 : Vec F S1x18 .f32) (xo5 xo6 : Vec F S1x1 .f32) :
    out0_B_5 c i a1 h1 a2 h2 a3 h3 a4 h4 a5 h5 a6 h6 a7 h7 hc x0 x1 x2 x3 x4 xo5 xo6 = k0_pay4 (corr x0) (offs x0) x4 x1 x2 xo5 := by
  unfold out0_B_5
  rw [View.read_writes_eq_canon _ _ _ (cover0_B_5 c i a1 h1 a2 h2 a3 h3 a4 h4 a5 h5 a6 h6 a7 h7 hc x0 x1 x2 x3 x4 xo5 xo6)]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, View.ld_unit_zero (S := S5000x18) hz2, View.ld_unit_zero (S := S5000x1) hz2,
    View.ld_unit_zero (S := S1x18) hz2, View.ld_unit_zero (S := S1x1) hz2]

/-- A later point leaves in the second accumulator its previous contents plus the block's sum against `B_tl`. -/
theorem later_snd (c : Dev nD) (i : grid0.Coords) (a1 : Memref sig .tc .vmem S5000x19 .f32) (h1 : a1.IsWhole) (a2 : Memref sig .tc .vmem S5000x18 .f32) (h2 : a2.IsWhole)
    (a3 : Memref sig .tc .vmem S5000x1 .f32) (h3 : a3.IsWhole) (a4 : Memref sig .tc .vmem S5000x1 .f32) (h4 : a4.IsWhole)
    (a5 : Memref sig .tc .vmem S1x18 .f32) (h5 : a5.IsWhole) (a6 : Memref sig .tc .vmem S1x1 .f32) (h6 : a6.IsWhole)
    (a7 : Memref sig .tc .vmem S1x1 .f32) (h7 : a7.IsWhole) (hc : ¬cond0_0 i)
    (x0 : Vec F S5000x19 .f32) (x1 : Vec F S5000x18 .f32) (x2 : Vec F S5000x1 .f32) (x3 : Vec F S5000x1 .f32) (x4 : Vec F S1x18 .f32) (xo5 xo6 : Vec F S1x1 .f32) :
    out0_B_6 c i a1 h1 a2 h2 a3 h3 a4 h4 a5 h5 a6 h6 a7 h7 hc x0 x1 x2 x3 x4 xo5 xo6 = k0_pay5 (corr x0) (offs x0) x4 x1 x3 xo6 := by
  unfold out0_B_6
  rw [View.read_writes_eq_canon _ _ _ (cover0_B_6 c i a1 h1 a2 h2 a3 h3 a4 h4 a5 h5 a6 h6 a7 h7 hc x0 x1 x2 x3 x4 xo5 xo6)]
  unfold kernelRun0_B
  dsimp only
  sl_unfold_words
  rw [View.canon_unit_zero hz2]
  simp only [View.readAt_eq_ld, h1.read_unread, h2.read_unread, h3.read_unread, h4.read_unread, h5.read_unread, h6.read_unread,
    h7.read_unread, View.ld_unit_zero (S := S5000x18) hz2, View.ld_unit_zero (S := S5000x1) hz2,
    View.ld_unit_zero (S := S1x18) hz2, View.ld_unit_zero (S := S1x1) hz2]

/-- The first point leaves in the first accumulator the zero it has just stored plus the block's sum against `y`. -/
theorem first_fst (c : Dev nD) (i : grid0.Coords) (a1 : Memref sig .tc .vmem S5000x19 .f32) (h1 : a1.IsWhole) (a2 : Memref sig .tc .vmem S5000x18 .f32) (h2 : a2.IsWhole)
    (a3 : Memref sig .tc .vmem S5000x1 .f32) (h3 : a3.IsWhole) (a4 : Memref sig .tc .vmem S5000x1 .f32) (h4 : a4.IsWhole)
    (a5 : Memref sig .tc .vmem S1x18 .f32) (h5 : a5.IsWhole) (a6 : Memref sig .tc .vmem S1x1 .f32) (h6 : a6.IsWhole)
    (a7 : Memref sig .tc .vmem S1x1 .f32) (h7 : a7.IsWhole) (hc : cond0_0 i)
    (x0 : Vec F S5000x19 .f32) (x1 : Vec F S5000x18 .f32) (x2 : Vec F S5000x1 .f32) (x3 : Vec F S5000x1 .f32) (x4 : Vec F S1x18 .f32) :
    out0_A_5 c i a1 h1 a2 h2 a3 h3 a4 h4 a5 h5 a6 h6 a7 h7 hc x0 x1 x2 x3 x4 = k0_pay4 (corr x0) (offs x0) x4 x1 x2 (k0_pay1 (F := F)) := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread,
    View.ld_unit_zero (S := S5000x18) hz2, View.ld_unit_zero (S := S5000x1) hz2,
    View.ld_unit_zero (S := S1x18) hz2, View.ld_unit_zero (S := S1x1) hz2]

/-- The first point leaves in the second accumulator the zero it has just stored plus the block's sum against `B_tl`. -/
theorem first_snd (c : Dev nD) (i : grid0.Coords) (a1 : Memref sig .tc .vmem S5000x19 .f32) (h1 : a1.IsWhole) (a2 : Memref sig .tc .vmem S5000x18 .f32) (h2 : a2.IsWhole)
    (a3 : Memref sig .tc .vmem S5000x1 .f32) (h3 : a3.IsWhole) (a4 : Memref sig .tc .vmem S5000x1 .f32) (h4 : a4.IsWhole)
    (a5 : Memref sig .tc .vmem S1x18 .f32) (h5 : a5.IsWhole) (a6 : Memref sig .tc .vmem S1x1 .f32) (h6 : a6.IsWhole)
    (a7 : Memref sig .tc .vmem S1x1 .f32) (h7 : a7.IsWhole) (hc : cond0_0 i)
    (x0 : Vec F S5000x19 .f32) (x1 : Vec F S5000x18 .f32) (x2 : Vec F S5000x1 .f32) (x3 : Vec F S5000x1 .f32) (x4 : Vec F S1x18 .f32) :
    out0_A_6 c i a1 h1 a2 h2 a3 h3 a4 h4 a5 h5 a6 h6 a7 h7 hc x0 x1 x2 x3 x4 = k0_pay5 (corr x0) (offs x0) x4 x1 x3 (k0_pay2 (F := F)) := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread,
    View.ld_unit_zero (S := S5000x18) hz2, View.ld_unit_zero (S := S5000x1) hz2,
    View.ld_unit_zero (S := S1x18) hz2, View.ld_unit_zero (S := S1x1) hz2]

/-! ## The same at a grid point, over the point's blocks -/

variable (m : (ℓ : Loc nD τ sig) → Buf (Elt F) ℓ)

/-- The blocks the point `t` reads: of `model_output`, `A`, `y`, `B_tl`, and the row `beta`. -/
abbrev moBlk (c : Dev nD) (t : Fin cfg0.N) : Vec F S5000x19 .f32 := iblk m c 0 t
abbrev aBlk (c : Dev nD) (t : Fin cfg0.N) : Vec F S5000x18 .f32 := iblk m c 1 t
abbrev yBlk (c : Dev nD) (t : Fin cfg0.N) : Vec F S5000x1 .f32 := iblk m c 2 t
abbrev bBlk (c : Dev nD) (t : Fin cfg0.N) : Vec F S5000x1 .f32 := iblk m c 3 t
abbrev betaBlk (c : Dev nD) (t : Fin cfg0.N) : Vec F S1x18 .f32 := iblk m c 4 t

/-- After the first point the accumulators hold `0 +` the first block's two sums. -/
theorem outs_first (c : Dev nD) (t : Fin cfg0.N) (h0 : t.val % 800 = 0) :
    outsAt0 m c t.val t.isLt
      = (k0_pay4 (corr (moBlk m c t)) (offs (moBlk m c t)) (betaBlk m c t) (aBlk m c t) (yBlk m c t) (k0_pay1 (F := F)),
         k0_pay5 (corr (moBlk m c t)) (offs (moBlk m c t)) (betaBlk m c t) (aBlk m c t) (bBlk m c t) (k0_pay2 (F := F))) := by
  rw [outsAt0_A m c t h0]
  exact congrArg₂ Prod.mk
    (first_fst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t))
    (first_snd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t))

/-- After a later point they hold what the point before left plus the point's block's two sums. -/
theorem outs_later (c : Dev nD) (t : Fin cfg0.N) (h0 : ¬t.val % 800 = 0) :
    outsAt0 m c t.val t.isLt
      = (k0_pay4 (corr (moBlk m c t)) (offs (moBlk m c t)) (betaBlk m c t) (aBlk m c t) (yBlk m c t) (outsAt0 m c (t.val - 1) (Nat.lt_of_le_of_lt (Nat.sub_le _ _) t.isLt)).1,
         k0_pay5 (corr (moBlk m c t)) (offs (moBlk m c t)) (betaBlk m c t) (aBlk m c t) (bBlk m c t) (outsAt0 m c (t.val - 1) (Nat.lt_of_le_of_lt (Nat.sub_le _ _) t.isLt)).2) := by
  rw [outsAt0_B m c t h0]
  exact congrArg₂ Prod.mk
    (later_fst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2)
    (later_snd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2)

end Cert.KernelIdeal.Totals

end
-- ==== Proof.LibColumn.lean ====
/-
  Two layout readings a row reduction with kept dimensions needs: a length-a vector cast to an a × 1 column, and an
  a × 1 column broadcast along the rows of an a × b array, each read at an index.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.BlockSum.lean ====
/-
  One block's contribution, entry by entry, over the extended reals.

  For a block of 5000 rows the kernel forms, row by row, the fitted value
  `fit r = (Σ_k A[r,k] · (beta[k] + c[r,k])) + d[r]` (a product, a sum along the 18 coefficients, one more addition), the
  residuals `fit r − y[r]` and `fit r − B_tl[r]`, their squares, and the squares' sums down the 5000 rows, which it adds to
  what the two accumulators held. Read at the ideal instance every operation is the extended reals' own: the lane
  reduction and the sublane reduction are finite sums (their zero accumulator is the additive neutral and drops out),
  the cast of a length-n vector to an n × 1 column and the broadcast of the one row of `beta` over the block's rows only
  re-index.
-/
import proofs.«132398_j48430051230317_1_alg».proof.Proof.Gen.KernelIdeal.Skeleton
import proofs.«132398_j48430051230317_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.BlockSum

open Cert.KernelIdeal Cert.KernelIdeal.Gen

/-- The fitted value of row `r` of a block: `(Σ_k A[r,k] · (beta[k] + c[r,k])) + d[r]`. -/
def fitRow (cc : FVec Ideal S5000x18 .f32) (dd : FVec Ideal S5000x1 .f32) (be : FVec Ideal S1x18 .f32)
    (aa : FVec Ideal S5000x18 .f32) (r : Fin 5000) : EReal :=
  (∑ k : Fin 18, aa (ix2 r k) * (be (ix2 (0 : Fin 1) k) + cc (ix2 r k))) + dd (ix2 r (0 : Fin 1))

/-- The block's sum of squared residuals against a column `yy`. -/
def sqSum (cc : FVec Ideal S5000x18 .f32) (dd : FVec Ideal S5000x1 .f32) (be : FVec Ideal S1x18 .f32)
    (aa : FVec Ideal S5000x18 .f32) (yy : FVec Ideal S5000x1 .f32) : EReal :=
  ∑ r : Fin 5000, (fitRow cc dd be aa r - yy (ix2 r (0 : Fin 1))) * (fitRow cc dd be aa r - yy (ix2 r (0 : Fin 1)))

/-- The row term the body computes is the fitted value. -/
theorem fitted_apply (cc : FVec Ideal S5000x18 .f32) (dd : FVec Ideal S5000x1 .f32) (be : FVec Ideal S1x18 .f32)
    (aa : FVec Ideal S5000x18 .f32) (r : Fin 5000) :
    k0_pay3 (F := Ideal) cc dd be aa (ix2 r (0 : Fin 1)) = fitRow cc dd be aa r := by
  unfold k0_pay3 fitRow
  dsimp only
  refine congrArg (· + dd (ix2 r (0 : Fin 1))) ?_
  refine (Cert.LibColumn.shapeCast_a_a1_apply _ _ r (0 : Fin 1)).trans ?_
  refine (Ideal.multiReduction_add_single _ 0x00000000#32 Facts₀.reduces_S5000x18_S5000 (.inl rfl) rfl (ix1 r)).trans ?_
  refine Finset.sum_congr rfl fun (k : Fin 18) _ => ?_
  have e : Facts₀.reduces_S5000x18_S5000.lift (ix1 r) k = ix2 r k :=
    funext fun a => Fin.ext (by match a with | ⟨0, _⟩ => rfl | ⟨1, _⟩ => rfl)
  rw [e]
  refine congrArg (fun z => aa (ix2 r k) * (z + cc (ix2 r k))) ?_
  refine (broadcastTo_1b_ab_apply _ _ r k).trans ?_
  exact congrFun (shapeCast_self be _) (ix2 (0 : Fin 1) k)

/-- What a point stores in the first accumulator: what it read there plus the block's sum against `yy`. -/
theorem fst_apply (cc : FVec Ideal S5000x18 .f32) (dd : FVec Ideal S5000x1 .f32) (be : FVec Ideal S1x18 .f32)
    (aa : FVec Ideal S5000x18 .f32) (yy : FVec Ideal S5000x1 .f32) (acc : FVec Ideal S1x1 .f32) :
    k0_pay4 (F := Ideal) cc dd be aa yy acc (ix2 (0 : Fin 1) (0 : Fin 1))
      = acc (ix2 (0 : Fin 1) (0 : Fin 1)) + sqSum cc dd be aa yy := by
  unfold k0_pay4 sqSum
  dsimp only
  show shapeCast S1x1 acc _ (ix2 (0 : Fin 1) (0 : Fin 1)) + _ = _
  rw [shapeCast_self]
  refine congrArg (acc (ix2 (0 : Fin 1) (0 : Fin 1)) + ·) ?_
  refine (Cert.LibColumn.shapeCast_a_a1_apply _ _ (0 : Fin 1) (0 : Fin 1)).trans ?_
  refine (Ideal.multiReduction_add_single _ 0x00000000#32 Facts₀.reduces_S5000x1_S1 (.inl rfl) rfl (ix1 (0 : Fin 1))).trans ?_
  refine Finset.sum_congr rfl fun (r : Fin 5000) _ => ?_
  have e : Facts₀.reduces_S5000x1_S1.lift (ix1 (0 : Fin 1)) r = ix2 r (0 : Fin 1) :=
    funext fun a => Fin.ext (by match a with | ⟨0, _⟩ => rfl | ⟨1, _⟩ => rfl)
  rw [e]
  exact congrArg (fun z => (z - yy (ix2 r (0 : Fin 1))) * (z - yy (ix2 r (0 : Fin 1)))) (fitted_apply cc dd be aa r)

/-- What a point stores in the second accumulator: what it read there plus the block's sum against `bb`. -/
theorem snd_apply (cc : FVec Ideal S5000x18 .f32) (dd : FVec Ideal S5000x1 .f32) (be : FVec Ideal S1x18 .f32)
    (aa : FVec Ideal S5000x18 .f32) (bb : FVec Ideal S5000x1 .f32) (acc : FVec Ideal S1x1 .f32) :
    k0_pay5 (F := Ideal) cc dd be aa bb acc (ix2 (0 : Fin 1) (0 : Fin 1))
      = acc (ix2 (0 : Fin 1) (0 : Fin 1)) + sqSum cc dd be aa bb := by
  unfold k0_pay5 sqSum
  dsimp only
  show shapeCast S1x1 acc _ (ix2 (0 : Fin 1) (0 : Fin 1)) + _ = _
  rw [shapeCast_self]
  refine congrArg (acc (ix2 (0 : Fin 1) (0 : Fin 1)) + ·) ?_
  refine (Cert.LibColumn.shapeCast_a_a1_apply _ _ (0 : Fin 1) (0 : Fin 1)).trans ?_
  refine (Ideal.multiReduction_add_single _ 0x00000000#32 Facts₀.reduces_S5000x1_S1 (.inl rfl) rfl (ix1 (0 : Fin 1))).trans ?_
  refine Finset.sum_congr rfl fun (r : Fin 5000) _ => ?_
  have e : Facts₀.reduces_S5000x1_S1.lift (ix1 (0 : Fin 1)) r = ix2 r (0 : Fin 1) :=
    funext fun a => Fin.ext (by match a with | ⟨0, _⟩ => rfl | ⟨1, _⟩ => rfl)
  rw [e]
  exact congrArg (fun z => (z - bb (ix2 r (0 : Fin 1))) * (z - bb (ix2 r (0 : Fin 1)))) (fitted_apply cc dd be aa r)

/-- The zero the first point stores is the extended real `0`. -/
theorem zero_fst : k0_pay1 (F := Ideal) (ix2 (0 : Fin 1) (0 : Fin 1)) = 0 := by
  unfold k0_pay1
  show Ideal.ofBits .f32 0x00000000#32 = 0
  exact Ideal.ofBits_zero_f32

theorem zero_snd : k0_pay2 (F := Ideal) (ix2 (0 : Fin 1) (0 : Fin 1)) = 0 := by
  unfold k0_pay2
  show Ideal.ofBits .f32 0x00000000#32 = 0
  exact Ideal.ofBits_zero_f32

end Cert.KernelIdeal.BlockSum

end
-- ==== Proof.RowBlocks.lean ====
/-
  Rows in blocks. The 4 000 000 rows of the inputs are visited by the kernel as 800 consecutive blocks of 5000 rows:
  row `5000 * t + r` is row `r` of block `t`. In any commutative monoid a sum over all rows is the sum over the blocks
  of each block's sum over its rows: a re-indexing along the bijection `(t, r) ↦ 5000 * t + r`, with no condition on
  the summands (so it holds on the extended reals, infinite entries included).
-/
import Mathlib.Algebra.BigOperators.Fin
import Mathlib.Logic.Equiv.Fin.Basic

open scoped BigOperators

namespace Cert.RowBlocks

/-- Row `r` of block `t`, as a row of the whole array. -/
def row (t : Fin 800) (r : Fin 5000) : Fin 4000000 :=
  ⟨5000 * t.val + r.val, by have := t.isLt; have := r.isLt; omega⟩

theorem row_val (t : Fin 800) (r : Fin 5000) : (row t r).val = 5000 * t.val + r.val := rfl

/-- `row` is the standard pairing of `Fin 800 × Fin 5000` with `Fin (800 * 5000)`. -/
theorem row_eq_pair (t : Fin 800) (r : Fin 5000) :
    row t r = (finProdFinEquiv (t, r) : Fin (800 * 5000)) := by
  apply Fin.ext
  show 5000 * t.val + r.val = r.val + 5000 * t.val
  omega

/-- The sum over all rows, block by block. -/
theorem sum_rows_eq_sum_blocks {M : Type*} [AddCommMonoid M] (f : Fin 4000000 → M) :
    ∑ i : Fin 4000000, f i = ∑ t : Fin 800, ∑ r : Fin 5000, f (row t r) := by
  have h : ∑ i : Fin (800 * 5000), f i = ∑ p : Fin 800 × Fin 5000, f (finProdFinEquiv p) :=
    (Equiv.sum_comp (finProdFinEquiv : Fin 800 × Fin 5000 ≃ Fin (800 * 5000)) f).symm
  rw [Fintype.sum_prod_type] at h
  refine h.trans ?_
  refine Finset.sum_congr rfl fun t _ => Finset.sum_congr rfl fun r _ => ?_
  rw [row_eq_pair]

/-- The blocks summed in order: the running sum up to block `n` plus block `n + 1`'s sum, over `Finset.range`. -/
theorem sum_blocks_range {M : Type*} [AddCommMonoid M] (g : ℕ → M) :
    ∑ t : Fin 800, g t.val = ∑ s ∈ Finset.range 800, g s :=
  Fin.sum_univ_eq_sum_range g 800

end Cert.RowBlocks
-- ==== Proof.LossSpec.lean ====
/-
  The loss both programs compute, as one function of the five input arrays over the extended reals.

  For row `i` of the 4 000 000 the fitted value is `fit i = (Σ_{k<18} A[i,k] · (beta[k] + mo[i,k])) + mo[i,18]`;
  against a column `col` the total squared residual is `total col = Σ_i (fit i − col[i])²`; the loss is
  `total y / N + 1 · (total B_tl / N)` with `N` the float 4 000 000 and `1` the float one (kept as their words: the same
  words stand on both sides and are never evaluated). The reference sums all rows at once; the kernel sums them block by
  block, 800 blocks of 5000 rows in order. `total_eq_range` is the identity between the two arrangements: only the
  re-indexing of a finite sum in a commutative monoid, so it needs nothing of the entries (they may be infinite).
-/
import Idealize.ShloMosaic.PureOps.Ideal
import Idealize.ShloMosaic.Lib.ValueIdx
import proofs.«132398_j48430051230317_1_alg».proof.Proof.RowBlocks

noncomputable section

open Idealize.ShloMosaic Idealize.ShloMosaic.ValueIdx
open scoped BigOperators

namespace Cert.Loss

open Cert.RowBlocks

variable (mo : (⟨2, ![4000000, 19]⟩ : Shape).Idx → EReal) (A : (⟨2, ![4000000, 18]⟩ : Shape).Idx → EReal)
  (β : (⟨1, ![18]⟩ : Shape).Idx → EReal) (col : (⟨2, ![4000000, 1]⟩ : Shape).Idx → EReal)

/-- The fitted value of row `i`. -/
def fit (i : Fin 4000000) : EReal :=
  (∑ k : Fin 18, A (ix2 i k) * (β (ix1 k) + mo (ix2 i (⟨k.val, by have := k.isLt; omega⟩ : Fin 19))))
    + mo (ix2 i (⟨18, by omega⟩ : Fin 19))

/-- The squared residual of row `i` against the column. -/
def sqRes (i : Fin 4000000) : EReal :=
  (fit mo A β i - col (ix2 i (0 : Fin 1))) * (fit mo A β i - col (ix2 i (0 : Fin 1)))

/-- The total over all rows. -/
def total : EReal := ∑ i : Fin 4000000, sqRes mo A β col i

/-- The total over the 5000 rows of block `s` (zero past the last block: never used). -/
def blockAt (s : ℕ) : EReal :=
  if h : s < 800 then ∑ r : Fin 5000, sqRes mo A β col (row ⟨s, h⟩ r) else 0

theorem blockAt_of_lt (s : ℕ) (h : s < 800) :
    blockAt mo A β col s = ∑ r : Fin 5000, sqRes mo A β col (row ⟨s, h⟩ r) := dif_pos h

/-- All rows at once, or the 800 blocks in order. -/
theorem total_eq_range : total mo A β col = ∑ s ∈ Finset.range 800, blockAt mo A β col s := by
  unfold total
  rw [sum_rows_eq_sum_blocks, ← sum_blocks_range (fun s => blockAt mo A β col s)]
  refine Finset.sum_congr rfl fun t _ => ?_
  rw [blockAt_of_lt mo A β col t.val t.isLt]

/-- The loss: the mean of the squared residuals against `y` plus one times the mean against `B_tl`. -/
def loss (y b : (⟨2, ![4000000, 1]⟩ : Shape).Idx → EReal) : EReal :=
  Ideal.div (total mo A β y) (Ideal.ofBits .f32 0x4A742400#32)
    + Ideal.ofBits .f32 0x3F800000#32 * Ideal.div (total mo A β b) (Ideal.ofBits .f32 0x4A742400#32)

end Cert.Loss

end
-- ==== Proof.BlockRows.lean ====
/-
  A block's entries are rows of the arrays.

  Block `t` of `model_output`, `A`, `y` and `B_tl` is rows `5000·t … 5000·t + 4999` of the array (all columns): entry
  `(r, j)` of the block is entry `(5000·t + r, j)` of the array. The row `beta` reaches the kernel as the 18-vector
  reshaped to 1 × 18, the same at every point. So the sum of squared residuals the kernel forms over block `t` is the
  specification's total over the rows of block `t`.
-/
import proofs.«132398_j48430051230317_1_alg».proof.Proof.PointTotals
import proofs.«132398_j48430051230317_1_alg».proof.Proof.BlockSum
import proofs.«132398_j48430051230317_1_alg».proof.Proof.LossSpec
import Idealize.ShloMosaic.Lib.StableHlo.Run
import Idealize.ShloMosaic.Lib.ValueLayout

noncomputable section

open Idealize.ShloMosaic Idealize.ShloMosaic.TcCoe Idealize.SL.Sem Idealize.ShloMosaic.ValueIdx
open scoped BigOperators

namespace Cert.KernelIdeal.Rows

open Cert.KernelIdeal Cert.KernelIdeal.Gen Cert.KernelIdeal.Totals Cert.KernelIdeal.BlockSum Cert.RowBlocks

variable (m : (ℓ : Loc nD τ sig) → Buf (Elt Ideal) ℓ)

/-- The five argument arrays as launched. -/
abbrev moArr (c : Dev nD) : FVec Ideal S4000000x19 .f32 := m ((c : Thread nD τ).loc main_arg0)
abbrev yArr (c : Dev nD) : FVec Ideal S4000000x1 .f32 := m ((c : Thread nD τ).loc main_arg1)
abbrev aArr (c : Dev nD) : FVec Ideal S4000000x18 .f32 := m ((c : Thread nD τ).loc main_arg2)
abbrev bArr (c : Dev nD) : FVec Ideal S4000000x1 .f32 := m ((c : Thread nD τ).loc main_arg3)
abbrev betaArr (c : Dev nD) : FVec Ideal S18 .f32 := m ((c : Thread nD τ).loc main_arg4)

/-- A grid point as a block number below 800. -/
def blk (t : Fin cfg0.N) : Fin 800 := ⟨t.val, lt_of_lt_of_eq t.isLt N_0⟩

/-- The index maps: the four streamed windows are at block `(t, 0)`, the row `beta` at block `(0, 0)`. -/
theorem idx_mo : ∀ t : Fin cfg0.N, win0_0.index t 0 = t.val ∧ win0_0.index t 1 = 0 :=
  (by decide +kernel : ∀ t : Fin grid0.N, win0_0.index t 0 = t.val ∧ win0_0.index t 1 = 0)
theorem idx_a : ∀ t : Fin cfg0.N, win0_1.index t 0 = t.val ∧ win0_1.index t 1 = 0 :=
  (by decide +kernel : ∀ t : Fin grid0.N, win0_1.index t 0 = t.val ∧ win0_1.index t 1 = 0)
theorem idx_y : ∀ t : Fin cfg0.N, win0_2.index t 0 = t.val ∧ win0_2.index t 1 = 0 :=
  (by decide +kernel : ∀ t : Fin grid0.N, win0_2.index t 0 = t.val ∧ win0_2.index t 1 = 0)
theorem idx_b : ∀ t : Fin cfg0.N, win0_3.index t 0 = t.val ∧ win0_3.index t 1 = 0 :=
  (by decide +kernel : ∀ t : Fin grid0.N, win0_3.index t 0 = t.val ∧ win0_3.index t 1 = 0)
theorem idx_beta : ∀ t : Fin cfg0.N, win0_4.index t 0 = 0 ∧ win0_4.index t 1 = 0 :=
  (by decide +kernel : ∀ t : Fin grid0.N, win0_4.index t 0 = 0 ∧ win0_4.index t 1 = 0)

/-- Entry `(r, j)` of block `t` of `model_output` is entry `(5000·t + r, j)` of the array. -/
theorem moBlk_apply (c : Dev nD) (t : Fin cfg0.N) (r : Fin 5000) (j : Fin 19) :
    moBlk m c t (ix2 r j) = moArr m c (ix2 (row (blk t) r) j) := by
  unfold moBlk iblk
  rw [View.read_apply]
  show V m c main_arg0 _ = m ((c : Thread nD τ).loc main_arg0) _
  rw [V_main_arg0]
  congr 1
  funext a
  apply Fin.ext
  match a with
  | ⟨0, _⟩ => show win0_0.index t 0 * 5000 + 1 * r.val = 5000 * t.val + r.val; rw [(idx_mo t).1]; omega
  | ⟨1, _⟩ => show win0_0.index t 1 * 19 + 1 * j.val = j.val; rw [(idx_mo t).2]; omega

theorem aBlk_apply (c : Dev nD) (t : Fin cfg0.N) (r : Fin 5000) (k : Fin 18) :
    aBlk m c t (ix2 r k) = aArr m c (ix2 (row (blk t) r) k) := by
  unfold aBlk iblk
  rw [View.read_apply]
  show V m c main_arg2 _ = m ((c : Thread nD τ).loc main_arg2) _
  rw [V_main_arg2]
  congr 1
  funext a
  apply Fin.ext
  match a with
  | ⟨0, _⟩ => show win0_1.index t 0 * 5000 + 1 * r.val = 5000 * t.val + r.val; rw [(idx_a t).1]; omega
  | ⟨1, _⟩ => show win0_1.index t 1 * 18 + 1 * k.val = k.val; rw [(idx_a t).2]; omega

theorem yBlk_apply (c : Dev nD) (t : Fin cfg0.N) (r : Fin 5000) :
    yBlk m c t (ix2 r (0 : Fin 1)) = yArr m c (ix2 (row (blk t) r) (0 : Fin 1)) := by
  unfold yBlk iblk
  rw [View.read_apply]
  show V m c main_arg1 _ = m ((c : Thread nD τ).loc main_arg1) _
  rw [V_main_arg1]
  congr 1
  funext a
  apply Fin.ext
  match a with
  | ⟨0, _⟩ => show win0_2.index t 0 * 5000 + 1 * r.val = 5000 * t.val + r.val; rw [(idx_y t).1]; omega
  | ⟨1, _⟩ => show win0_2.index t 1 * 1 + 1 * 0 = 0; rw [(idx_y t).2]

theorem bBlk_apply (c : Dev nD) (t : Fin cfg0.N) (r : Fin 5000) :
    bBlk m c t (ix2 r (0 : Fin 1)) = bArr m c (ix2 (row (blk t) r) (0 : Fin 1)) := by
  unfold bBlk iblk
  rw [View.read_apply]
  show V m c main_arg3 _ = m ((c : Thread nD τ).loc main_arg3) _
  rw [V_main_arg3]
  congr 1
  funext a
  apply Fin.ext
  match a with
  | ⟨0, _⟩ => show win0_3.index t 0 * 5000 + 1 * r.val = 5000 * t.val + r.val; rw [(idx_b t).1]; omega
  | ⟨1, _⟩ => show win0_3.index t 1 * 1 + 1 * 0 = 0; rw [(idx_b t).2]

/-- The 1 × 18 array the kernel's fifth window stages is the 18-vector `beta` reshaped. -/
theorem beta_row (c : Dev nD) :
    (V m c main_v0 : FVec Ideal S1x18 .f32) = shapeCast S1x18 (betaArr m c) Facts₀.shapeCasts_S18_S1x18 := by
  show StableHlo.after hostOps0 (fun b => m (c, b)) (Proc.devRef .tc main_v0) = _
  after_results
  rfl

theorem betaBlk_apply (c : Dev nD) (t : Fin cfg0.N) (k : Fin 18) :
    betaBlk m c t (ix2 (0 : Fin 1) k) = betaArr m c (ix1 k) := by
  unfold betaBlk iblk
  rw [View.read_apply]
  show V m c main_v0 _ = _
  rw [beta_row]
  refine Eq.trans ?_ (shapeCast_a_1a_apply (betaArr m c) Facts₀.shapeCasts_S18_S1x18 (0 : Fin 1) k)
  congr 1
  funext a
  apply Fin.ext
  match a with
  | ⟨0, _⟩ => show win0_4.index t 0 * 1 + 1 * 0 = 0; rw [(idx_beta t).1]
  | ⟨1, _⟩ => show win0_4.index t 1 * 18 + 1 * k.val = k.val; rw [(idx_beta t).2]; omega

/-- The first 18 columns and the last column of a block of `model_output`, at an entry. -/
theorem corr_apply (x0 : Vec Ideal S5000x19 .f32) (r : Fin 5000) (k : Fin 18) :
    corr (F := Ideal) x0 (ix2 r k) = x0 (ix2 r (⟨k.val, by have := k.isLt; omega⟩ : Fin 19)) :=
  congrArg x0 (funext fun a => Fin.ext (by
    match a with
    | ⟨0, _⟩ => show 0 + 1 * r.val = r.val; omega
    | ⟨1, _⟩ => show 0 + 1 * k.val = k.val; omega))

theorem offs_apply (x0 : Vec Ideal S5000x19 .f32) (r : Fin 5000) :
    offs (F := Ideal) x0 (ix2 r (0 : Fin 1)) = x0 (ix2 r (⟨18, by omega⟩ : Fin 19)) :=
  congrArg x0 (funext fun a => Fin.ext (by
    match a with
    | ⟨0, _⟩ => show 0 + 1 * r.val = r.val; omega
    | ⟨1, _⟩ => show 18 + 1 * 0 = 18; omega))

/-- The fitted value of row `r` of block `t` is the specification's fitted value of row `5000·t + r`. -/
theorem fitRow_eq (c : Dev nD) (t : Fin cfg0.N) (r : Fin 5000) :
    fitRow (corr (moBlk m c t)) (offs (moBlk m c t)) (betaBlk m c t) (aBlk m c t) r
      = Cert.Loss.fit (moArr m c) (aArr m c) (betaArr m c) (row (blk t) r) := by
  unfold fitRow Cert.Loss.fit
  rw [offs_apply, moBlk_apply]
  refine congrArg (· + _) (Finset.sum_congr rfl fun (k : Fin 18) _ => ?_)
  rw [aBlk_apply, betaBlk_apply, corr_apply, moBlk_apply]

/-- The kernel's sums over block `t` are the specification's totals over the block's rows. -/
theorem sqSum_y (c : Dev nD) (t : Fin cfg0.N) :
    sqSum (corr (moBlk m c t)) (offs (moBlk m c t)) (betaBlk m c t) (aBlk m c t) (yBlk m c t)
      = Cert.Loss.blockAt (moArr m c) (aArr m c) (betaArr m c) (yArr m c) t.val := by
  rw [Cert.Loss.blockAt_of_lt _ _ _ _ t.val (blk t).isLt]
  unfold sqSum
  refine Finset.sum_congr rfl fun (r : Fin 5000) _ => ?_
  unfold Cert.Loss.sqRes
  rw [fitRow_eq, yBlk_apply]
  rfl

theorem sqSum_b (c : Dev nD) (t : Fin cfg0.N) :
    sqSum (corr (moBlk m c t)) (offs (moBlk m c t)) (betaBlk m c t) (aBlk m c t) (bBlk m c t)
      = Cert.Loss.blockAt (moArr m c) (aArr m c) (betaArr m c) (bArr m c) t.val := by
  rw [Cert.Loss.blockAt_of_lt _ _ _ _ t.val (blk t).isLt]
  unfold sqSum
  refine Finset.sum_congr rfl fun (r : Fin 5000) _ => ?_
  unfold Cert.Loss.sqRes
  rw [fitRow_eq, bBlk_apply]
  rfl

end Cert.KernelIdeal.Rows

end
-- ==== Proof.RunningTotals.lean ====
/-
  The running totals, point by point.

  After grid point `n` the first accumulator holds the sum of the blocks' totals against `y` for blocks `0 … n`, the second
  the same against `B_tl`: the first point leaves `0 + (block 0's total)`, and each later point adds its block's total to
  what the point before left. By induction on the point (never by listing the 800 points). After the last point, number 799, the
  two accumulators hold the totals over all 800 blocks.
-/
import proofs.«132398_j48430051230317_1_alg».proof.Proof.BlockRows

noncomputable section

open Idealize.ShloMosaic Idealize.ShloMosaic.TcCoe Idealize.SL.Sem Idealize.ShloMosaic.ValueIdx
open scoped BigOperators

namespace Cert.KernelIdeal.Running

open Cert.KernelIdeal Cert.KernelIdeal.Gen Cert.KernelIdeal.Totals Cert.KernelIdeal.BlockSum Cert.KernelIdeal.Rows

variable (m : (ℓ : Loc nD τ sig) → Buf (Elt Ideal) ℓ)

/-- Block `s`'s total against `y`, and against `B_tl`, of the arrays as launched on core `c`. -/
abbrev blockY (c : Dev nD) (s : ℕ) : EReal := Cert.Loss.blockAt (moArr m c) (aArr m c) (betaArr m c) (yArr m c) s
abbrev blockB (c : Dev nD) (s : ℕ) : EReal := Cert.Loss.blockAt (moArr m c) (aArr m c) (betaArr m c) (bArr m c) s

/-- What point `t` stores in the first accumulator, holding `acc` before: `acc` plus block `t`'s total against `y`. -/
theorem point_fst (c : Dev nD) (t : Fin cfg0.N) (acc : FVec Ideal S1x1 .f32) :
    k0_pay4 (F := Ideal) (corr (moBlk m c t)) (offs (moBlk m c t)) (betaBlk m c t) (aBlk m c t) (yBlk m c t) acc
        (ix2 (0 : Fin 1) (0 : Fin 1))
      = acc (ix2 (0 : Fin 1) (0 : Fin 1)) + blockY m c t.val :=
  (fst_apply (corr (moBlk m c t)) (offs (moBlk m c t)) (betaBlk m c t) (aBlk m c t) (yBlk m c t) acc).trans
    (congrArg (acc (ix2 (0 : Fin 1) (0 : Fin 1)) + ·) (sqSum_y m c t))

/-- The same for the second accumulator and `B_tl`. -/
theorem point_snd (c : Dev nD) (t : Fin cfg0.N) (acc : FVec Ideal S1x1 .f32) :
    k0_pay5 (F := Ideal) (corr (moBlk m c t)) (offs (moBlk m c t)) (betaBlk m c t) (aBlk m c t) (bBlk m c t) acc
        (ix2 (0 : Fin 1) (0 : Fin 1))
      = acc (ix2 (0 : Fin 1) (0 : Fin 1)) + blockB m c t.val :=
  (snd_apply (corr (moBlk m c t)) (offs (moBlk m c t)) (betaBlk m c t) (aBlk m c t) (bBlk m c t) acc).trans
    (congrArg (acc (ix2 (0 : Fin 1) (0 : Fin 1)) + ·) (sqSum_b m c t))

/-- After point `n` the accumulators hold the totals of blocks `0 … n`. -/
theorem running (c : Dev nD) : ∀ (n : ℕ) (hn : n < cfg0.N),
    (outsAt0 m c n hn).1 (ix2 (0 : Fin 1) (0 : Fin 1)) = ∑ s ∈ Finset.range (n + 1), blockY m c s
    ∧ (outsAt0 m c n hn).2 (ix2 (0 : Fin 1) (0 : Fin 1)) = ∑ s ∈ Finset.range (n + 1), blockB m c s
  | 0, hn => by
    have e : outsAt0 m c 0 hn = _ := outs_first m c ⟨0, hn⟩ rfl
    rw [e, Finset.sum_range_one, Finset.sum_range_one]
    refine ⟨(point_fst m c ⟨0, hn⟩ (k0_pay1 (F := Ideal))).trans ?_, (point_snd m c ⟨0, hn⟩ (k0_pay2 (F := Ideal))).trans ?_⟩
    · rw [zero_fst, zero_add]
    · rw [zero_snd, zero_add]
  | n + 1, hn => by
    have hN : cfg0.N = 800 := N_0
    have hB : ¬(n + 1) % 800 = 0 := by omega
    have e : outsAt0 m c (n + 1) hn = _ := outs_later m c ⟨n + 1, hn⟩ hB
    obtain ⟨ih1, ih2⟩ := running c n (Nat.lt_of_succ_lt hn)
    rw [e, Finset.sum_range_succ _ (n + 1), Finset.sum_range_succ _ (n + 1)]
    exact ⟨(point_fst m c ⟨n + 1, hn⟩ _).trans (congrArg (· + blockY m c (n + 1)) ih1),
      (point_snd m c ⟨n + 1, hn⟩ _).trans (congrArg (· + blockB m c (n + 1)) ih2)⟩

/-- At the last grid point (the one numbered 799) the accumulators hold the totals over all rows. Stated at any point `t`
    with that number, so that the recursion over the points is never evaluated at a numeral. -/
theorem at_last (c : Dev nD) (t : Fin cfg0.N) (h : t.val = 799) :
    (outsAt0 m c t.val t.isLt).1 (ix2 (0 : Fin 1) (0 : Fin 1))
        = Cert.Loss.total (moArr m c) (aArr m c) (betaArr m c) (yArr m c)
    ∧ (outsAt0 m c t.val t.isLt).2 (ix2 (0 : Fin 1) (0 : Fin 1))
        = Cert.Loss.total (moArr m c) (aArr m c) (betaArr m c) (bArr m c) := by
  rw [Cert.Loss.total_eq_range, Cert.Loss.total_eq_range]
  have hr := running m c t.val t.isLt
  rw [show t.val + 1 = 800 from by omega] at hr
  exact hr

end Cert.KernelIdeal.Running

end
-- ==== Proof.KernelResult.lean ====
/-
  The kernel's result.

  The two 1 × 1 result arrays are written back once, after the last grid point, and their one block is the whole array:
  they end holding what the accumulators hold after that point, the two totals over all rows. The nine host operations
  after the pallas_call then turn each 1 × 1 array into a scalar, divide by the float 4 000 000, multiply the second
  quotient by the float one, and add: the loss.
-/
import proofs.«132398_j48430051230317_1_alg».proof.Proof.RunningTotals
import Idealize.ShloMosaic.Lib.StableHlo.Run
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Result

open Cert.KernelIdeal Cert.KernelIdeal.Gen Cert.KernelIdeal.Totals Cert.KernelIdeal.Rows Cert.KernelIdeal.Running

variable (m : (ℓ : Loc nD τ sig) → Buf (Elt Ideal) ℓ) (ρ : Dev nD → PrngReg)

/-- The two totals over all rows, of the arrays as launched on core `c`. -/
abbrev totY (c : Dev nD) : EReal := Cert.Loss.total (moArr m c) (aArr m c) (betaArr m c) (yArr m c)
abbrev totB (c : Dev nD) : EReal := Cert.Loss.total (moArr m c) (aArr m c) (betaArr m c) (bArr m c)

/-- The contents the two 1 × 1 result arrays end with: their one entry the total. -/
def sumY (c : Dev nD) : Buf (Elt Ideal) ((c : Thread nD τ).loc main_v1_0) := fun _ => totY m c
def sumB (c : Dev nD) : Buf (Elt Ideal) ((c : Thread nD τ).loc main_v1_1) := fun _ => totB m c

theorem sumY_apply (c : Dev nD) (x : S1x1.Idx) : sumY m c x = totY m c := rfl
theorem sumB_apply (c : Dev nD) (x : S1x1.Idx) : sumB m c x = totB m c := rfl

/-- A 1 × 1 array has one index. -/
theorem one_idx (x : S1x1.Idx) : x = ix2 (0 : Fin 1) (0 : Fin 1) :=
  funext fun a => Fin.ext (by
    match a with
    | ⟨0, _⟩ => have h : (x 0).val < 1 := (x 0).isLt; show (x 0).val = 0; omega
    | ⟨1, _⟩ => have h : (x 1).val < 1 := (x 1).isLt; show (x 1).val = 0; omega)

/-- Both result windows sit at block (0, 0) at every point. -/
theorem idx_out5 : ∀ t : Fin cfg0.N, win0_5.index t 0 = 0 ∧ win0_5.index t 1 = 0 :=
  (by decide +kernel : ∀ t : Fin grid0.N, win0_5.index t 0 = 0 ∧ win0_5.index t 1 = 0)
theorem idx_out6 : ∀ t : Fin cfg0.N, win0_6.index t 0 = 0 ∧ win0_6.index t 1 = 0 :=
  (by decide +kernel : ∀ t : Fin grid0.N, win0_6.index t 0 = 0 ∧ win0_6.index t 1 = 0)

/-- The last grid point: the only one that writes the result arrays back. -/
def lastPoint : Fin cfg0.N := ⟨799, by rw [show cfg0.N = 800 from N_0]; omega⟩

theorem val_of_flush (t : Fin cfg0.N) (h : t.val % 800 = 799) : t.val = 799 := by
  have hN : cfg0.N = 800 := N_0
  have := t.isLt
  omega

/-- What is written back of contents `X` of a result window's staging buffer, and what is read of contents `s` of its
    array through the window's block, at the block's one entry: `X` and `s` at their one entry (the windows are never cut,
    and their block is the whole 1 × 1 array). Over any contents. -/
theorem cut_y (t : Fin cfg0.N) (X : Vec Ideal S1x1 .f32) (j : ((cfg0.win 5).xblock (grid0.coords t)).Idx) :
    (cfg0.win 5).cut (grid0.coords t) X j = X (ix2 (0 : Fin 1) (0 : Fin 1)) := by
  show X _ = X _
  exact congrArg X (one_idx _)

theorem cut_b (t : Fin cfg0.N) (X : Vec Ideal S1x1 .f32) (j : ((cfg0.win 6).xblock (grid0.coords t)).Idx) :
    (cfg0.win 6).cut (grid0.coords t) X j = X (ix2 (0 : Fin 1) (0 : Fin 1)) := by
  show X _ = X _
  exact congrArg X (one_idx _)

theorem read_y (c : Dev nD) (t : Fin cfg0.N) (s : Buf (Elt Ideal) ((c : Thread nD τ).loc main_v1_0))
    (j : ((cfg0.win 5).xblock (grid0.coords t)).Idx) :
    ((cfg0.win 5).blk t).view.read (Elt Ideal) s j = s (ix2 (0 : Fin 1) (0 : Fin 1)) := by
  rw [View.read_apply]
  show s _ = s _
  exact congrArg s (one_idx _)

theorem read_b (c : Dev nD) (t : Fin cfg0.N) (s : Buf (Elt Ideal) ((c : Thread nD τ).loc main_v1_1))
    (j : ((cfg0.win 6).xblock (grid0.coords t)).Idx) :
    ((cfg0.win 6).blk t).view.read (Elt Ideal) s j = s (ix2 (0 : Fin 1) (0 : Fin 1)) := by
  rw [View.read_apply]
  show s _ = s _
  exact congrArg s (one_idx _)

/-- The one write-back of the first result array, at the last point, writes the total: what the accumulator holds then. -/
theorem flushed_y (c : Dev nD) (t : Fin cfg0.N) (hf : (cfg0.win 5).flush t = true) :
    (dats m 0 c).flushed 5 t = ((cfg0.win 5).blk t).view.read (Elt Ideal) (sumY m c) := by
  have h799 : t.val = 799 := val_of_flush t ((flush0_5 t).mp hf)
  show (cfg0.win 5).cut (grid0.coords t) ((dats m 0 c).after 5 t) = _
  rw [after0_5]
  funext j
  rw [read_y, cut_y, sumY_apply]
  exact (at_last m c t h799).1

theorem flushed_b (c : Dev nD) (t : Fin cfg0.N) (hf : (cfg0.win 6).flush t = true) :
    (dats m 0 c).flushed 6 t = ((cfg0.win 6).blk t).view.read (Elt Ideal) (sumB m c) := by
  have h799 : t.val = 799 := val_of_flush t ((flush0_6 t).mp hf)
  show (cfg0.win 6).cut (grid0.coords t) ((dats m 0 c).after 6 t) = _
  rw [after0_6]
  funext j
  rw [read_b, cut_b, sumB_apply]
  exact (at_last m c t h799).2

/-- So the first result array ends holding the accumulator's last contents (the last point's block covers it). -/
theorem final_y (c : Dev nD) : (dats m 0 c).arrAt 5 cfg0.N = sumY m c :=
  (dats m 0 c).arrAt_eq_of_cover 5 (sumY m c) (flushed_y m c) fun i =>
    ⟨lastPoint, (flush0_5 lastPoint).mpr rfl, by
      show i ∈ ((View.whole main_v1_0).slice (win0_5.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index lastPoint 0 * win0_5.size 0 ≤ (i 0 : Nat) ∧ (i 0 : Nat) < win0_5.index lastPoint 0 * win0_5.size 0 + win0_5.xsize (grid0.coords lastPoint) 0
        rw [(idx_out5 lastPoint).1, show win0_5.xsize (grid0.coords lastPoint) 0 = 1 from by decide +kernel]; omega
      | ⟨1, _⟩ =>
        show win0_5.index lastPoint 1 * win0_5.size 1 ≤ (i 1 : Nat) ∧ (i 1 : Nat) < win0_5.index lastPoint 1 * win0_5.size 1 + win0_5.xsize (grid0.coords lastPoint) 1
        rw [(idx_out5 lastPoint).2, show win0_5.xsize (grid0.coords lastPoint) 1 = 1 from by decide +kernel]; omega⟩

theorem final_b (c : Dev nD) : (dats m 0 c).arrAt 6 cfg0.N = sumB m c :=
  (dats m 0 c).arrAt_eq_of_cover 6 (sumB m c) (flushed_b m c) fun i =>
    ⟨lastPoint, (flush0_6 lastPoint).mpr rfl, by
      show i ∈ ((View.whole main_v1_1).slice (win0_6.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index lastPoint 0 * win0_6.size 0 ≤ (i 0 : Nat) ∧ (i 0 : Nat) < win0_6.index lastPoint 0 * win0_6.size 0 + win0_6.xsize (grid0.coords lastPoint) 0
        rw [(idx_out6 lastPoint).1, show win0_6.xsize (grid0.coords lastPoint) 0 = 1 from by decide +kernel]; omega
      | ⟨1, _⟩ =>
        show win0_6.index lastPoint 1 * win0_6.size 1 ≤ (i 1 : Nat) ∧ (i 1 : Nat) < win0_6.index lastPoint 1 * win0_6.size 1 + win0_6.xsize (grid0.coords lastPoint) 1
        rw [(idx_out6 lastPoint).2, show win0_6.xsize (grid0.coords lastPoint) 1 = 1 from by decide +kernel]; omega⟩

/-- The host operations after the pallas_call, as one function of the two 1 × 1 arrays. -/
def hostTail (s1 s2 : FVec Ideal S1x1 .f32) : FVec Ideal S_ .f32 :=
  addf (Host.divf (F := Ideal) (shapeCast S_ s1 Facts₀.shapeCasts_S1x1_S_) (constant (F := Ideal) S_ .f32 0x4A742400#32))
    (mulf (constant (F := Ideal) S_ .f32 0x3F800000#32)
      (Host.divf (F := Ideal) (shapeCast S_ s2 Facts₀.shapeCasts_S1x1_S_) (constant (F := Ideal) S_ .f32 0x4A742400#32)))

/-- The result buffer after the lines that follow the region: the host tail of the two final arrays. -/
theorem tail_eq (c : Dev nD) :
    Pipeline.afterTail₀ cfgs (dats m) 0 (V0 m) [hostOps1] c main_v7 = hostTail (sumY m c) (sumB m c) := by
  have e5 : Pipeline.withArrays (cfgs 0).spec c (V0 m c) (fun w => (dats m 0 c).arrAt w (cfgs 0).N) (Proc.devRef .tc main_v1_0)
      = sumY m c := (Pipeline.withArrays_arr spec0 launch0.win.arr_inj c _ _ 5).trans (final_y m c)
  have e6 : Pipeline.withArrays (cfgs 0).spec c (V0 m c) (fun w => (dats m 0 c).arrAt w (cfgs 0).N) (Proc.devRef .tc main_v1_1)
      = sumB m c := (Pipeline.withArrays_arr spec0 launch0.win.arr_inj c _ _ 6).trans (final_b m c)
  unfold Pipeline.afterTail₀
  show StableHlo.after hostOps1 _ (Proc.devRef .tc main_v7) = _
  after_results
  rw [e5, e6]
  rfl

/-- The scalar a 1 × 1 array is reshaped to is its one entry. -/
theorem scalar_apply (s : FVec Ideal S1x1 .f32) (i : S_.Idx) :
    shapeCast S_ s Facts₀.shapeCasts_S1x1_S_ i = s (ix2 (0 : Fin 1) (0 : Fin 1)) :=
  shapeCast_apply s Facts₀.shapeCasts_S1x1_S_ i (ix2 (0 : Fin 1) (0 : Fin 1)) (by
    rw [Shape.rowMajor_val_two]
    have := (S_.rowMajor i).isLt
    show 0 * 1 + 0 = _
    have hn : S_.numel = 1 := by decide
    omega)

/-- The host tail of the two totals is the loss. -/
theorem hostTail_eq (c : Dev nD) :
    hostTail (sumY m c) (sumB m c)
      = fun _ => Cert.Loss.loss (moArr m c) (aArr m c) (betaArr m c) (yArr m c) (bArr m c) := by
  funext i
  unfold hostTail Cert.Loss.loss
  show Ideal.div (shapeCast S_ (sumY m c) _ i) _ + _ * Ideal.div (shapeCast S_ (sumB m c) _ i) _ = _
  rw [scalar_apply, scalar_apply, sumY_apply, sumB_apply]
  rfl

/-- The kernel's run, read: the result at the loss of the launch contents, the five arguments unchanged. -/
theorem run : θ_run defs (onTc (τ := τ) (main (F := Ideal))) ⟨m, fun _ => 0, ρ⟩ fun r => ∀ c : Dev nD,
      r.2.mem ((c : Thread nD τ).loc main_v7)
        = (fun _ => Cert.Loss.loss (moArr m c) (aArr m c) (betaArr m c) (yArr m c) (bArr m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(((h c).2 main_v7 (Pipeline.mem_restRefs_of main_v7 (by decide) (by decide))).trans (tail_eq m c)).trans (hostTail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Result

end
-- ==== Proof.RefResult.lean ====
/-
  The reference's result is the loss.

  The reference slices `model_output` into its first 18 columns and its last, broadcasts `beta` over the rows, forms
  `A · (beta + c)`, sums along the 18 coefficients from zero, adds the last column, subtracts `y` (and, separately, `B_tl`),
  squares, sums all 4 000 000 entries from zero, divides by the float 4 000 000, and adds the first quotient to one times the
  second. Read stage by stage at an index this is the specification's `loss`: the sums' zero starting value is the additive
  neutral, and the sum over the 4 000 000 × 1 index set is the sum over its rows.
-/
import proofs.«132398_j48430051230317_1_alg».proof.Proof.Gen.ReferenceIdeal.Read
import proofs.«132398_j48430051230317_1_alg».proof.Proof.LossSpec
import Idealize.ShloMosaic.Lib.ValueIdx
import Idealize.ShloMosaic.PureOps.Ideal.Laws

noncomputable section

open Idealize.ShloMosaic Idealize.ShloMosaic.ValueIdx
open scoped BigOperators

namespace Cert.ReferenceIdeal.RefValue

open Cert.ReferenceIdeal Cert.ReferenceIdeal.Read

variable (x0 : (⟨S4000000x19, .f32⟩ : BufTy).Contents (Elt Ideal)) (x1 : (⟨S4000000x1, .f32⟩ : BufTy).Contents (Elt Ideal))
  (x2 : (⟨S4000000x18, .f32⟩ : BufTy).Contents (Elt Ideal)) (x3 : (⟨S4000000x1, .f32⟩ : BufTy).Contents (Elt Ideal))
  (x4 : (⟨S18, .f32⟩ : BufTy).Contents (Elt Ideal))

/-! The stages' index maps, composed, at an entry given by its coordinates. -/

theorem at_coef (a : Fin 4000000) (k : Fin 18) :
    idx_main_v6 (idx_main_v7 (ix2 a (0 : Fin 1))) k = ix2 a k :=
  funext fun d => Fin.ext (by match d with | ⟨0, _⟩ => rfl | ⟨1, _⟩ => rfl)

theorem at_corr (a : Fin 4000000) (k : Fin 18) :
    idx_main_v0 (ix2 a k) = ix2 a (⟨k.val, by have := k.isLt; omega⟩ : Fin 19) :=
  funext fun d => Fin.ext (by match d with | ⟨0, _⟩ => rfl | ⟨1, _⟩ => rfl)

theorem at_offs (a : Fin 4000000) :
    idx_main_v1 (ix2 a (0 : Fin 1)) = ix2 a (⟨18, by omega⟩ : Fin 19) :=
  funext fun d => Fin.ext (by match d with | ⟨0, _⟩ => rfl | ⟨1, _⟩ => rfl)

theorem at_beta (a : Fin 4000000) (k : Fin 18) :
    idx_main_v2 (idx_main_v3 (ix2 a k)) = ix1 k :=
  funext fun d => Fin.ext (by match d with | ⟨0, _⟩ => rfl)

/-- One term of the row sum: `A[a,k] · (beta[k] + mo[a,k])`. -/
theorem term_apply (a : Fin 4000000) (k : Fin 18) :
    val_main_v5 (F := Ideal) x0 x2 x4 (ix2 a k)
      = x2 (ix2 a k) * (x4 (ix1 k) + x0 (ix2 a (⟨k.val, by have := k.isLt; omega⟩ : Fin 19))) := by
  rw [val_main_v5_apply, val_main_v4_apply, val_main_v3_apply, val_main_v2_apply, val_main_v0_apply, at_beta, at_corr]
  rfl

/-- The fitted value of row `a`. -/
theorem fitted_apply (a : Fin 4000000) :
    val_main_v8 (F := Ideal) x0 x2 x4 (ix2 a (0 : Fin 1)) = Cert.Loss.fit x0 x2 x4 a := by
  rw [val_main_v8_apply, val_main_v7_apply, val_main_v6_apply, val_main_v1_apply, at_offs]
  unfold Cert.Loss.fit
  show (Ideal.ofBits .f32 0x00000000#32 + _) + _ = _
  rw [Ideal.ofBits_zero_f32, zero_add]
  refine congrArg (· + _) (Finset.sum_congr rfl fun (k : Fin 18) _ => ?_)
  rw [at_coef, term_apply]

/-- The squared residuals of row `a`. -/
theorem sq_y_apply (a : Fin 4000000) :
    val_main_v10 (F := Ideal) x0 x1 x2 x4 (ix2 a (0 : Fin 1)) = Cert.Loss.sqRes x0 x2 x4 x1 a := by
  rw [val_main_v10_apply, val_main_v9_apply, fitted_apply]
  rfl

theorem sq_b_apply (a : Fin 4000000) :
    val_main_v14 (F := Ideal) x0 x2 x3 x4 (ix2 a (0 : Fin 1)) = Cert.Loss.sqRes x0 x2 x4 x3 a := by
  rw [val_main_v14_apply, val_main_v13_apply, fitted_apply]
  rfl

/-- The sum over the 4 000 000 × 1 index set is the total over the rows. -/
theorem total_y : (∑ j : S4000000x1.Idx, val_main_v10 (F := Ideal) x0 x1 x2 x4 j) = Cert.Loss.total x0 x2 x4 x1 := by
  rw [sum_idx2]
  unfold Cert.Loss.total
  refine Finset.sum_congr rfl fun (a : Fin 4000000) _ => ?_
  rw [Fin.sum_univ_one]
  exact sq_y_apply x0 x1 x2 x4 a

theorem total_b : (∑ j : S4000000x1.Idx, val_main_v14 (F := Ideal) x0 x2 x3 x4 j) = Cert.Loss.total x0 x2 x4 x3 := by
  rw [sum_idx2]
  unfold Cert.Loss.total
  refine Finset.sum_congr rfl fun (a : Fin 4000000) _ => ?_
  rw [Fin.sum_univ_one]
  exact sq_b_apply x0 x2 x3 x4 a

/-- The reference's last stage is the loss. -/
theorem result_eq : val_main_v18 (F := Ideal) x0 x1 x2 x3 x4 = fun _ => Cert.Loss.loss x0 x2 x4 x1 x3 := by
  funext i
  rw [val_main_v18_apply, val_main_v12_apply, val_main_v17_apply, val_main_v16_apply, val_main_v11_apply,
    val_main_v15_apply, total_y, total_b]
  unfold Cert.Loss.loss
  show Ideal.div (Ideal.ofBits .f32 0x00000000#32 + _) _ + _ * Ideal.div (Ideal.ofBits .f32 0x00000000#32 + _) _ = _
  rw [Ideal.ofBits_zero_f32, zero_add, zero_add]
  rfl

end Cert.ReferenceIdeal.RefValue

end
-- ==== Proof.lean ====
/-
  A Tolles–Lawson style loss: `mean((fit − y)²) + 1 · mean((fit − B_tl)²)` over 4 000 000 rows, with
  `fit i = (Σ_{k<18} A[i,k] · (beta[k] + mo[i,k])) + mo[i,18]`.

  The reference forms the fitted values of all rows, squares the two residuals and sums each over all rows at once. The
  kernel streams the rows in 800 blocks of 5000, keeps the two sums of squares in two 1 × 1 accumulators that it zeroes
  at the first grid point and adds each block's sums into, writes them back after the last point, and the lines after
  the pallas_call divide by the float 4 000 000 and combine. Over the extended reals every operation of both programs is the
  textbook one, the same operations on the same operands in the same order, except for the ARRANGEMENT of the big sum: all
  rows at once against 800 partial sums added in order from zero. Those are equal by re-indexing a finite sum in a
  commutative monoid (Proof/RowBlocks.lean), which asks nothing of the summands, so the precondition (finite inputs) is never
  opened. Proof/LossSpec.lean states the loss as one function of the five arrays; Proof/KernelResult.lean shows the kernel's
  result buffer ends holding it (block sums: Proof/BlockSum.lean, Proof/BlockRows.lean; the induction over the grid points:
  Proof/RunningTotals.lean, over what each point leaves: Proof/PointTotals.lean); Proof/RefResult.lean shows the
  reference's does. The ideal pass rewrote nothing, so the idealization claim is trivial; the three frames are the
  generated ones.
-/
import proofs.«132398_j48430051230317_1_alg».proof.Defs
import proofs.«132398_j48430051230317_1_alg».proof.Proof.Gen.Kernel
import proofs.«132398_j48430051230317_1_alg».proof.Proof.Gen.Kernel.Skeleton
import proofs.«132398_j48430051230317_1_alg».proof.Proof.Gen.Kernel.Launch
import proofs.«132398_j48430051230317_1_alg».proof.Proof.Gen.Kernel.Points
import proofs.«132398_j48430051230317_1_alg».proof.Proof.Gen.Kernel.Frame
import proofs.«132398_j48430051230317_1_alg».proof.Proof.Gen.KernelIdeal
import proofs.«132398_j48430051230317_1_alg».proof.Proof.Gen.KernelIdeal.Skeleton
import proofs.«132398_j48430051230317_1_alg».proof.Proof.Gen.KernelIdeal.Launch
import proofs.«132398_j48430051230317_1_alg».proof.Proof.Gen.KernelIdeal.Points
import proofs.«132398_j48430051230317_1_alg».proof.Proof.Gen.KernelIdeal.Frame
import proofs.«132398_j48430051230317_1_alg».proof.Proof.Gen.ReferenceIdeal
import proofs.«132398_j48430051230317_1_alg».proof.Proof.Gen.ReferenceIdeal.Run
import proofs.«132398_j48430051230317_1_alg».proof.Proof.Gen.ReferenceIdeal.Read
import proofs.«132398_j48430051230317_1_alg».proof.Proof.Gen.Pre_finite_inputs
import proofs.«132398_j48430051230317_1_alg».proof.Proof.KernelResult
import proofs.«132398_j48430051230317_1_alg».proof.Proof.RefResult
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the five arguments both idealized programs end with the loss of those arguments in their
    result buffer: the kernel by its 800 block sums, the reference by its one sum over all rows. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2.1,
    (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
